-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x512x4096 : Shape := ⟨3, ![8, 512, 4096]⟩
abbrev S8x512 : Shape := ⟨2, ![8, 512]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x512x4096 : S_.BroadcastsInDim S8x512x4096 (![] : Fin 0 → Fin S8x512x4096.rank)
  reducesTo_S8x512x4096_S_d0_1_2 : S8x512x4096.ReducesTo [0, 1, 2] S_
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S8x4096x1024 .f32) (main_arg1 : FVec F S8x512x4096 .f32) (main_arg2 : FVec F S8x512 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x512x4096 .f32 := Host.absf main_arg1
  let main_cst_0 : FVec F S_ .f32 := constant S_ .f32 0x7F800000#32
  let main_v5 : FVec F S8x512x4096 .f32 := broadcastInDim S8x512x4096 ![] bcast_S_S8x512x4096 main_cst_0
  let main_v6 : IVec S8x512x4096 1 := cmpf .olt main_v4 main_v5
  let main_c_1 : IVec S_ 1 := constantI S_ 1 1#1
  let main_v7 : IVec S_ 1 := (fun x v => Host.reduce IntOp.andi x v reducesTo_S8x512x4096_S_d0_1_2 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  main_v13
-- ==== Kernel.lean ====
abbrev S8x4096x1024 : Shape := ⟨3, ![8, 4096, 1024]⟩
abbrev S8x512x4096 : Shape := ⟨3, ![8, 512, 4096]⟩
abbrev S8x512 : Shape := ⟨2, ![8, 512]⟩
abbrev S8x512x1 : Shape := ⟨3, ![8, 512, 1]⟩
abbrev S8x512x1024 : Shape := ⟨3, ![8, 512, 1024]⟩
abbrev S1x512x1024 : Shape := ⟨3, ![1, 512, 1024]⟩
abbrev S1x1024x1024 : Shape := ⟨3, ![1, 1024, 1024]⟩
abbrev S1x512x1 : Shape := ⟨3, ![1, 512, 1]⟩
abbrev S512x1024 : Shape := ⟨2, ![512, 1024]⟩
abbrev S1024x1024 : Shape := ⟨2, ![1024, 1024]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x512x4096, .f32⟩
  | .hbm, ⟨2, _⟩ => ⟨S8x512, .f32⟩
  | .hbm, ⟨3, _⟩ => ⟨S8x512x1, .f32⟩
  | .hbm, ⟨4, _⟩ => ⟨S8x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x512x1, .f32⟩
  | .local _ .vmem, ⟨5, _⟩ => ⟨S1x512x1, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S8x512_S8x512x1_0_1 : S8x512.BroadcastsInDim S8x512x1 (![0, 1] : Fin 2 → Fin S8x512x1.rank)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x1024 : S512x1.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x512x4096.size a
  hwx0_0 : ∀ i : grid0.Coords, EltTy.bits .f32 = 32 ∨ (Rect.block (s := S8x512x4096) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x1024.size a
  hwx0_1 : ∀ i : grid0.Coords, EltTy.bits .f32 = 32 ∨ (Rect.block (s := S8x4096x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x512x1.size a
  hwx0_2 : ∀ i : grid0.Coords, EltTy.bits .f32 = 32 ∨ (Rect.block (s := S8x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x512x1024.size a
  hwx0_3 : ∀ i : grid0.Coords, EltTy.bits .f32 = 32 ∨ (Rect.block (s := S8x512x1024) S1x512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x1024 : Shape := ⟨3, ![8, 4096, 1024]⟩
abbrev S8x512x4096 : Shape := ⟨3, ![8, 512, 4096]⟩
abbrev S8x512 : Shape := ⟨2, ![8, 512]⟩
abbrev S8x512x1024 : Shape := ⟨3, ![8, 512, 1024]⟩
abbrev S8x512x1 : Shape := ⟨3, ![8, 512, 1]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x512x4096, .f32⟩
  | .hbm, ⟨2, _⟩ => ⟨S8x512, .f32⟩
  | .hbm, ⟨3, _⟩ => ⟨S8x512x1024, .f32⟩
  | .hbm, ⟨4, _⟩ => ⟨S8x512x1, .f32⟩
  | .hbm, ⟨5, _⟩ => ⟨S8x512x1024, .f32⟩
  | .hbm, ⟨6, _⟩ => ⟨S8x512x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S8x512_S8x512x1_0_1 : S8x512.BroadcastsInDim S8x512x1 (![0, 1] : Fin 2 → Fin S8x512x1.rank)
  bcast_S8x512x1_S8x512x1024_0_1_2 : S8x512x1.BroadcastsInDim S8x512x1024 (![0, 1, 2] : Fin 3 → Fin S8x512x1024.rank)
  dot_S8x512x4096_S8x4096x1024_S8x512x1024_2_1_1_2_0_0_wf : DotDims.WF S8x512x4096 S8x4096x1024 S8x512x1024 [2] [1] [1] [2] [0] [0]

variable [Facts₀]

def dot_S8x512x4096_S8x4096x1024_S8x512x1024_2_1_1_2_0_0 : DotDims S8x512x4096 S8x4096x1024 S8x512x1024 where
  lhsContracting := [2]
  rhsContracting := [1]
  lhsNonContracting := [1]
  rhsNonContracting := [2]
  lhsBatch := [0]
  rhsBatch := [0]
  wf := dot_S8x512x4096_S8x4096x1024_S8x512x1024_2_1_1_2_0_0_wf

class Facts : Prop extends Facts₀ where

variable [Facts]
-- ==== Proof.PoolSpec.lean ====
/-
  Mean pooling as a batched product, stated index by index.

  For mapping weights M[b, n, s], token states D[b, s, h] and node lengths L[b, n] the pooled value is

      pooled M D L (b, n, h) = (∑ₛ M(b, n, s) · D(b, s, h)) / L(b, n)        (s over all 4096 tokens),

  the quotient being the extended reals' own (whatever L(b, n) is).  The sum over the 4096 tokens is also reached
  1024 tokens at a time: `partialSum k` is the sum of the first 1024·k terms, it starts at zero, each further
  stretch of 1024 terms is added to it, and after four stretches it is the whole sum.  Only that addition of
  extended reals is associative with a zero is used: no entry needs to be finite.
-/
import Idealize.ShloMosaic.Lib.ValueIdx
import Idealize.ShloMosaic.PureOps.Ideal.Laws

noncomputable section

namespace Cert.Pool

open Idealize.ShloMosaic Idealize.ShloMosaic.ValueIdx
open scoped BigOperators

/-- The mapping weights, the token states, the node lengths and the pooled result, as arrays of extended reals. -/
abbrev MapArr : Type := (⟨3, ![8, 512, 4096]⟩ : Shape).Idx → EReal
abbrev DocArr : Type := (⟨3, ![8, 4096, 1024]⟩ : Shape).Idx → EReal
abbrev LenArr : Type := (⟨2, ![8, 512]⟩ : Shape).Idx → EReal
abbrev OutArr : Type := (⟨3, ![8, 512, 1024]⟩ : Shape).Idx → EReal

/-- Term `s` of the contraction at (b, n, h): M(b, n, s) · D(b, s, h); zero past the last token, so that the terms
    are indexed by all naturals. -/
def term (M : MapArr) (D : DocArr) (b : Fin 8) (n : Fin 512) (h : Fin 1024) (s : ℕ) : EReal :=
  if hs : s < 4096 then M (ix3 b n ⟨s, hs⟩) * D (ix3 b ⟨s, hs⟩ h) else 0

/-- The sum of the first 1024·k terms. -/
def partialSum (M : MapArr) (D : DocArr) (b : Fin 8) (n : Fin 512) (h : Fin 1024) (k : ℕ) : EReal :=
  ∑ s ∈ Finset.range (1024 * k), term M D b n h s

/-- The pooled array: the whole contraction divided by the node's length. -/
def pooled (M : MapArr) (D : DocArr) (L : LenArr) : OutArr := fun j =>
  Ideal.div (∑ s : Fin 4096, M (ix3 (j 0) (j 1) s) * D (ix3 (j 0) s (j 2))) (L (ix2 (j 0) (j 1)))

theorem pooled_apply (M : MapArr) (D : DocArr) (L : LenArr) (b : Fin 8) (n : Fin 512) (h : Fin 1024) :
    pooled M D L (ix3 b n h) = Ideal.div (∑ s : Fin 4096, M (ix3 b n s) * D (ix3 b s h)) (L (ix2 b n)) := rfl

/-- No term has been added yet. -/
theorem partialSum_zero (M : MapArr) (D : DocArr) (b : Fin 8) (n : Fin 512) (h : Fin 1024) :
    partialSum M D b n h 0 = 0 := by
  unfold partialSum
  rw [Nat.mul_zero, Finset.range_zero, Finset.sum_empty]

/-- One more stretch of 1024 terms: the stretch's own sum is added. -/
theorem partialSum_succ (M : MapArr) (D : DocArr) (b : Fin 8) (n : Fin 512) (h : Fin 1024) (k : ℕ) :
    partialSum M D b n h (k + 1) = partialSum M D b n h k + ∑ r : Fin 1024, term M D b n h (1024 * k + r.val) := by
  unfold partialSum
  rw [Nat.mul_succ, Finset.sum_range_add]
  exact congrArg _ (Finset.sum_range fun x => term M D b n h (1024 * k + x))

/-- A term inside the array is the product it names. -/
theorem term_of_lt (M : MapArr) (D : DocArr) (b : Fin 8) (n : Fin 512) (h : Fin 1024) (s : ℕ) (hs : s < 4096) :
    term M D b n h s = M (ix3 b n ⟨s, hs⟩) * D (ix3 b ⟨s, hs⟩ h) := dif_pos hs

/-- Four stretches are the whole contraction. -/
theorem partialSum_four (M : MapArr) (D : DocArr) (b : Fin 8) (n : Fin 512) (h : Fin 1024) :
    partialSum M D b n h 4 = ∑ s : Fin 4096, M (ix3 b n s) * D (ix3 b s h) := by
  unfold partialSum
  rw [show 1024 * 4 = 4096 from rfl, Finset.sum_range]
  exact Finset.sum_congr rfl fun s _ => term_of_lt M D b n h s.val s.isLt

end Cert.Pool

end
-- ==== Proof.PoolRef.lean ====
/-
  The reference computes the pooled array.

  Its four operations are: the batched product  P(b, n, h) = ∑ₛ M(b, n, s) · D(b, s, h)  over all 4096 tokens, the node
  lengths viewed as [8, 512, 1] and then repeated along the last axis to [8, 512, 1024], and the quotient of the two.
  Read at (b, n, h) this is (∑ₛ M(b, n, s) · D(b, s, h)) / L(b, n), the pooled value.
-/
import proofs.«155703_j84473416778474_1_alg».proof.Proof.Gen.ReferenceIdeal.Read
import proofs.«155703_j84473416778474_1_alg».proof.Proof.PoolSpec

noncomputable section

namespace Cert.ReferenceIdeal.Pool

open Cert.ReferenceIdeal Cert.ReferenceIdeal.Read
open Idealize.ShloMosaic Idealize.ShloMosaic.ValueIdx
open scoped BigOperators

/-- The product's left factor at (b, n, h) and token s is M(b, n, s). -/
theorem left_factor (b : Fin 8) (n : Fin 512) (h : Fin 1024) (s : Fin 4096) :
    lidx_main_v0 (ix3 b n h) s = ix3 b n s :=
  funext fun a => Fin.ext (by match a with | ⟨0, _⟩ => rfl | ⟨1, _⟩ => rfl | ⟨2, _⟩ => rfl)

/-- Its right factor is D(b, s, h). -/
theorem right_factor (b : Fin 8) (n : Fin 512) (h : Fin 1024) (s : Fin 4096) :
    ridx_main_v0 (ix3 b n h) s = ix3 b s h :=
  funext fun a => Fin.ext (by match a with | ⟨0, _⟩ => rfl | ⟨1, _⟩ => rfl | ⟨2, _⟩ => rfl)

/-- The repeated node lengths at (b, n, h) are L(b, n). -/
theorem length_entry (b : Fin 8) (n : Fin 512) (h : Fin 1024) :
    idx_main_v1 (idx_main_v2 (ix3 b n h)) = ix2 b n :=
  funext fun a => Fin.ext (by match a with | ⟨0, _⟩ => rfl | ⟨1, _⟩ => rfl)

/-- The reference's result is the pooled array of its arguments. -/
theorem result_eq_pooled (D : Cert.Pool.DocArr) (M : Cert.Pool.MapArr) (L : Cert.Pool.LenArr) :
    val_main_v3 (F := Ideal) D M L = Cert.Pool.pooled M D L := by
  funext i
  obtain ⟨b, n, h, rfl⟩ : ∃ (b : Fin 8) (n : Fin 512) (h : Fin 1024), i = ix3 b n h := ⟨i 0, i 1, i 2, eq_ix3 i⟩
  rw [val_main_v3_apply, val_main_v0_apply, val_main_v2_apply, val_main_v1_apply, Cert.Pool.pooled_apply, length_entry]
  simp only [left_factor, right_factor, Ideal.hostDivf_def]

end Cert.ReferenceIdeal.Pool

end
-- ==== Proof.PoolPieces.lean ====
/-
  What one grid step leaves behind, case by case.

  The body keeps a running block acc[n, h] in a scratch buffer.  At the first token tile of a batch entry it stores the
  zero block and then the zero block plus the tile's product; at a later tile it stores acc plus the tile's product;
  at the last tile it also stores, into the output block, the new acc divided row by row by the node lengths.  Here
  each buffer's final contents are read back as the one stored value that covers it:

      first tile :  acc' = update x0 x1 0
      later tile :  acc' = update x0 x1 acc
      last tile  :  acc' = update x0 x1 acc,   out = quotient x2 acc'

  with  update x0 x1 a = a + x0 · x1  (the tile's matrix product into a zero accumulator) and
  quotient x2 a = a / x2 broadcast along the rows — the body's own arithmetic terms.
-/
import proofs.«155703_j84473416778474_1_alg».proof.Proof.Gen.KernelIdeal.Frame
import Idealize.ShloMosaic.Lib.Pipeline.Value
import Idealize.ShloMosaic.Lib.Tactic

noncomputable section

namespace Cert.KernelIdeal.Pool

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile (neither first nor last): the scratch ends at acc plus the tile's product. -/
theorem scratch_B (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1x512x1 .f32) (harg4 : arg4.IsWhole) (arg5 : Memref sig .tc .vmem S1x512x1024 .f32) (harg5 : arg5.IsWhole) (arg6 : Memref sig .tc .vmem S512x1024 .f32) (harg6 : arg6.IsWhole) (hc0 : ¬cond0_0 i) (hc1 : ¬cond0_1 i)
    (x0 : Vec F S1x512x1024 .f32) (x1 : Vec F S1x1024x1024 .f32) (x2 : Vec F S1x512x1 .f32) (xs0 : Vec F S512x1024 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg6.read_unread,
    View.ld_unit_zero (S := S1x512x1024) hz3, View.ld_unit_zero (S := S1x1024x1024) hz3, View.ld_unit_zero (S := S512x1024) hz2]

/-- The first tile: the zero block is stored, read back, and the tile's product added to it. -/
theorem scratch_A (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1x512x1 .f32) (harg4 : arg4.IsWhole) (arg5 : Memref sig .tc .vmem S1x512x1024 .f32) (harg5 : arg5.IsWhole) (arg6 : Memref sig .tc .vmem S512x1024 .f32) (harg6 : arg6.IsWhole) (hc0 : cond0_0 i) (hc1 : ¬cond0_1 i)
    (x0 : Vec F S1x512x1024 .f32) (x1 : Vec F S1x1024x1024 .f32) (x2 : Vec F S1x512x1 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x1024) hz2, View.readCov_unit_zero (S := S512x1024) _ hz2]
  simp only [View.readAt_eq_ld, harg2.read_unread, harg3.read_unread,
    View.ld_unit_zero (S := S1x512x1024) hz3, View.ld_unit_zero (S := S1x1024x1024) hz3, View.ld_unit_zero (S := S512x1024) hz2]

/-- The last tile, the scratch: acc plus the tile's product, as at any later tile. -/
theorem scratch_C (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1x512x1 .f32) (harg4 : arg4.IsWhole) (arg5 : Memref sig .tc .vmem S1x512x1024 .f32) (harg5 : arg5.IsWhole) (arg6 : Memref sig .tc .vmem S512x1024 .f32) (harg6 : arg6.IsWhole) (hc0 : ¬cond0_0 i) (hc1 : cond0_1 i)
    (x0 : Vec F S1x512x1024 .f32) (x1 : Vec F S1x1024x1024 .f32) (x2 : Vec F S1x512x1 .f32) (xs0 : Vec F S512x1024 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg6.read_unread,
    View.ld_unit_zero (S := S1x512x1024) hz3, View.ld_unit_zero (S := S1x1024x1024) hz3, View.ld_unit_zero (S := S512x1024) hz2]

/-- The last tile, the output block: the new acc, read back from the scratch, divided by the node lengths. -/
theorem out_C (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1x512x1 .f32) (harg4 : arg4.IsWhole) (arg5 : Memref sig .tc .vmem S1x512x1024 .f32) (harg5 : arg5.IsWhole) (arg6 : Memref sig .tc .vmem S512x1024 .f32) (harg6 : arg6.IsWhole) (hc0 : ¬cond0_0 i) (hc1 : cond0_1 i)
    (x0 : Vec F S1x512x1024 .f32) (x1 : Vec F S1x1024x1024 .f32) (x2 : Vec F S1x512x1 .f32) (xs0 : Vec F S512x1024 .f32) :
    out0_C_3 c i arg2 harg2 arg3 harg3 arg4 harg4 arg5 harg5 arg6 harg6 hc0 hc1 x0 x1 x2 xs0 = k0_pay3 x2 (k0_pay2 x0 x1 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg6.read_unread,
    View.readCov_unit_zero (S := S512x1024) _ hz2,
    View.ld_unit_zero (S := S1x512x1024) hz3, View.ld_unit_zero (S := S1x1024x1024) hz3, View.ld_unit_zero (S := S1x512x1) hz3,
    View.ld_unit_zero (S := S512x1024) hz2]

end Cert.KernelIdeal.Pool

end
-- ==== Proof.LibColumns.lean ====
/-
  Column vectors and row sums read at an index.

  A vector of length a viewed as a column [a, 1]; a column broadcast along its unit axis to [a, b]; and the sum of a
  matrix along its second axis, read at a row.  Each reads ONE entry (or one row) of its operand, named here by
  coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Columns

open Idealize.ShloMosaic Idealize.ShloMosaic.ValueIdx
open scoped BigOperators

variable {α : Type}

/-- A vector of length `a` viewed as a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, n]` matrix of extended reals along its second axis, started from the zero word and read at row
    `r`, is `∑ₖ v(r, k)`. -/
theorem multiReduction_add_row {a n : ℕ} (v : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ v 0x00000000#32 h hφ hacc (ix1 r) = ∑ k : Fin n, v (ix2 r k) := by
  refine (Ideal.multiReduction_add_single v 0x00000000#32 h hφ hacc (ix1 r)).trans ?_
  refine Finset.sum_congr rfl fun k _ => ?_
  exact congrArg v (funext fun ax => Fin.ext (by match ax with | ⟨0, _⟩ => rfl | ⟨1, _⟩ => rfl))

end Cert.Columns

end
-- ==== Proof.PoolPayload.lean ====
/-
  The body's arithmetic, read one entry at a time over the extended reals.

  * The zero block is zero everywhere.
  * update x0 x1 a  at (n, h)  is  a(n, h) + ∑ᵣ x0(0, n, r) · x1(0, r, h),  r over the tile's 1024 tokens: the two
    tiles lose their unit leading axis, the narrowing to a shorter float format changes nothing here, and the matrix
    product into a zero accumulator is the plain sum of products.
  * quotient x2 a  at (0, n, h)  is  a(n, h) / x2(0, n, 0): the column of node lengths loses its unit leading axis and
    is repeated along the rows before the division.
-/
import proofs.«155703_j84473416778474_1_alg».proof.Proof.Gen.KernelIdeal.Skeleton
import proofs.«155703_j84473416778474_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pool

open Cert.KernelIdeal Cert.KernelIdeal.Gen
open Idealize.ShloMosaic Idealize.ShloMosaic.ValueIdx
open scoped BigOperators

/-- The zero block. -/
theorem zero_apply (j : S512x1024.Idx) : k0_pay1 (F := Ideal) j = 0 := by
  unfold k0_pay1
  rw [shapeCast_self, broadcast_apply]
  exact Ideal.ofBits_zero_f32

/-! ### The tile product's operand indices -/

theorem tile_lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem tile_lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem tile_rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem tile_rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A tile without its unit leading axis reads the tile at leading coordinate 0. -/
theorem dropLead_apply {a b : ℕ} {α : Type} (x : (⟨3, ![1, a, b]⟩ : Shape).Idx → α)
    (hc : (⟨3, ![1, a, b]⟩ : Shape).ShapeCasts ⟨2, ![a, b]⟩) (p : Fin a) (q : Fin b) :
    shapeCast ⟨2, ![a, b]⟩ x hc (ix2 p q) = x (ix3 (0 : Fin 1) p q) :=
  shapeCast_apply x hc _ _ (by
    rw [Shape.rowMajor_val_two, Shape.rowMajor_val_three]
    show (0 * a + p.val) * b + q.val = p.val * b + q.val
    rw [Nat.zero_mul, Nat.zero_add])

/-- A block given a unit leading axis reads, at leading coordinate 0, the block. -/
theorem addLead_apply {a b : ℕ} {α : Type} (x : (⟨2, ![a, b]⟩ : Shape).Idx → α)
    (hc : (⟨2, ![a, b]⟩ : Shape).ShapeCasts ⟨3, ![1, a, b]⟩) (p : Fin a) (q : Fin b) :
    shapeCast ⟨3, ![1, a, b]⟩ x hc (ix3 (0 : Fin 1) p q) = x (ix2 p q) :=
  shapeCast_apply x hc _ _ (by
    rw [Shape.rowMajor_val_two, Shape.rowMajor_val_three]
    show p.val * b + q.val = (0 * a + p.val) * b + q.val
    rw [Nat.zero_mul, Nat.zero_add])

/-- The tile product into a zero accumulator at (n, h): the sum over the tile's tokens. -/
theorem tile_product_apply (A : FVec Ideal S512x1024 .bf16) (B : FVec Ideal S1024x1024 .bf16) (n : Fin 512) (h : Fin 1024) :
    matmul (F := Ideal) dot_S512x1024_S1024x1024_S512x1024_1_0_0_1_n_n none A B (constant S512x1024 .f32 0x00000000#32) (ix2 n h)
      = ∑ r : Fin 1024, A (ix2 n r) * B (ix2 r h) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 n h) ((ValueIdx.contrEquiv1 dot_S512x1024_S1024x1024_S512x1024_1_0_0_1_n_n 1024 rfl rfl).symm k) = ix2 n k := funext fun a => Fin.ext (by
    match a with
    | ⟨0, _⟩ => exact tile_lhs_0 _ _
    | ⟨1, _⟩ => exact (tile_lhs_1 _ _).trans hk)
  have er : dot_S512x1024_S1024x1024_S512x1024_1_0_0_1_n_n.rhsIdx (ix2 n h) ((ValueIdx.contrEquiv1 dot_S512x1024_S1024x1024_S512x1024_1_0_0_1_n_n 1024 rfl rfl).symm k) = ix2 k h := funext fun a => Fin.ext (by
    match a with
    | ⟨0, _⟩ => exact (tile_rhs_0 _ _).trans hk
    | ⟨1, _⟩ => exact tile_rhs_1 _ _)
  rw [el, er]

/-- update x0 x1 a at (n, h). -/
theorem update_apply (x0 : Vec Ideal S1x512x1024 .f32) (x1 : Vec Ideal S1x1024x1024 .f32) (a : Vec Ideal S512x1024 .f32)
    (n : Fin 512) (h : Fin 1024) :
    k0_pay2 x0 x1 a (ix2 n h) = a (ix2 n h) + ∑ r : Fin 1024, x0 (ix3 (0 : Fin 1) n r) * x1 (ix3 (0 : Fin 1) r h) := by
  unfold k0_pay2
  rw [shapeCast_self, addf_apply, tile_product_apply]
  refine congrArg (a (ix2 n h) + ·) (Finset.sum_congr rfl fun r _ => ?_)
  rw [truncf_apply, truncf_apply, dropLead_apply, dropLead_apply]

/-- quotient x2 a at (0, n, h). -/
theorem quotient_apply (x2 : Vec Ideal S1x512x1 .f32) (a : Vec Ideal S512x1024 .f32) (n : Fin 512) (h : Fin 1024) :
    k0_pay3 x2 a (ix3 (0 : Fin 1) n h) = Ideal.div (a (ix2 n h)) (x2 (ix3 (0 : Fin 1) n (0 : Fin 1))) := by
  unfold k0_pay3
  rw [addLead_apply, divf_apply, Cert.Columns.broadcastTo_a1_ab_apply, dropLead_apply]

end Cert.KernelIdeal.Pool

end
-- ==== Proof.PoolBlocks.lean ====
/-
  Which entries of the arrays a grid step sees.

  The grid has 8 · 4 points; point t works on batch entry b = t / 4 and token tile k = t % 4.  There the mapping
  tile is rows M(b, ·, 1024·k + ·), the token tile is D(b, 1024·k + ·, ·), the length tile is the column
  L'(b, ·, 0) of the lengths viewed as [8, 512, 1], and the output block is O(b, ·, ·).  The lengths column itself is
  the node lengths with a unit axis appended: L'(b, n, 0) = L(b, n).
-/
import proofs.«155703_j84473416778474_1_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Pool

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The three input tiles of a grid point and the arrays they are cut from, at their literal shapes. -/
abbrev mapTile (c : Dev nD) (t : Fin cfg0.N) : Vec F S1x512x1024 .f32 := iblk m c 0 t
abbrev docTile (c : Dev nD) (t : Fin cfg0.N) : Vec F S1x1024x1024 .f32 := iblk m c 1 t
abbrev lenTile (c : Dev nD) (t : Fin cfg0.N) : Vec F S1x512x1 .f32 := iblk m c 2 t
abbrev mapArr (c : Dev nD) : Vec F S8x512x4096 .f32 := V m c main_arg1
abbrev docArr (c : Dev nD) : Vec F S8x4096x1024 .f32 := V m c main_arg0
abbrev lenCol (c : Dev nD) : Vec F S8x512x1 .f32 := V m c main_v0
abbrev lenArr (c : Dev nD) : Vec F S8x512 .f32 := V m c main_arg2

/-- The grid has 32 points. -/
theorem point_lt (t : Fin cfg0.N) : t.val < 32 := lt_of_lt_of_eq t.isLt (show cfg0.N = 32 from N_0)

/-- The block index of each window at point t, per axis: batch entry t / 4 and, where the window follows the tokens,
    tile t % 4. -/
theorem block_index : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-- The mapping tile at (0, n, r) is M(b, n, 1024·(t % 4) + r), b = t / 4. -/
theorem mapTile_apply (c : Dev nD) (t : Fin cfg0.N) (b : Fin 8) (hb : b.val = t.val / 4) (n : Fin 512) (r : Fin 1024)
    (hs : 1024 * (t.val % 4) + r.val < 4096) :
    mapTile m c t (ix3 (0 : Fin 1) n r) = mapArr m c (ix3 b n ⟨1024 * (t.val % 4) + r.val, hs⟩) := by
  obtain ⟨e0, e1, e2, -⟩ := block_index t
  show V m c main_arg1 (((cfg0.win 0).blk t).view.emb (ix3 (0 : Fin 1) n r)) = V m c main_arg1 _
  refine congrArg (V m c main_arg1) (funext fun a => Fin.ext ?_)
  match a with
  | ⟨0, _⟩ => show win0_0.index t (0 : Fin 3) * 1 + 1 * 0 = b.val; omega
  | ⟨1, _⟩ => show win0_0.index t (1 : Fin 3) * 512 + 1 * n.val = n.val; omega
  | ⟨2, _⟩ => show win0_0.index t (2 : Fin 3) * 1024 + 1 * r.val = 1024 * (t.val % 4) + r.val; omega

/-- The token tile at (0, r, h) is D(b, 1024·(t % 4) + r, h), b = t / 4. -/
theorem docTile_apply (c : Dev nD) (t : Fin cfg0.N) (b : Fin 8) (hb : b.val = t.val / 4) (r : Fin 1024) (h : Fin 1024)
    (hs : 1024 * (t.val % 4) + r.val < 4096) :
    docTile m c t (ix3 (0 : Fin 1) r h) = docArr m c (ix3 b ⟨1024 * (t.val % 4) + r.val, hs⟩ h) := by
  obtain ⟨-, -, -, e0, e1, e2, -⟩ := block_index t
  show V m c main_arg0 (((cfg0.win 1).blk t).view.emb (ix3 (0 : Fin 1) r h)) = V m c main_arg0 _
  refine congrArg (V m c main_arg0) (funext fun a => Fin.ext ?_)
  match a with
  | ⟨0, _⟩ => show win0_1.index t (0 : Fin 3) * 1 + 1 * 0 = b.val; omega
  | ⟨1, _⟩ => show win0_1.index t (1 : Fin 3) * 1024 + 1 * r.val = 1024 * (t.val % 4) + r.val; omega
  | ⟨2, _⟩ => show win0_1.index t (2 : Fin 3) * 1024 + 1 * h.val = h.val; omega

/-- The length tile at (0, n, 0) is L'(b, n, 0), b = t / 4. -/
theorem lenTile_apply (c : Dev nD) (t : Fin cfg0.N) (b : Fin 8) (hb : b.val = t.val / 4) (n : Fin 512) :
    lenTile m c t (ix3 (0 : Fin 1) n (0 : Fin 1)) = lenCol m c (ix3 b n (0 : Fin 1)) := by
  obtain ⟨-, -, -, -, -, -, e0, e1, e2, -⟩ := block_index t
  show V m c main_v0 (((cfg0.win 2).blk t).view.emb (ix3 (0 : Fin 1) n (0 : Fin 1))) = V m c main_v0 _
  refine congrArg (V m c main_v0) (funext fun a => Fin.ext ?_)
  match a with
  | ⟨0, _⟩ => show win0_2.index t (0 : Fin 3) * 1 + 1 * 0 = b.val; omega
  | ⟨1, _⟩ => show win0_2.index t (1 : Fin 3) * 512 + 1 * n.val = n.val; omega
  | ⟨2, _⟩ => show win0_2.index t (2 : Fin 3) * 1 + 1 * 0 = 0; omega

/-- The lengths column is the node lengths with a unit axis appended (the one operation before the call). -/
theorem lenCol_eq (c : Dev nD) :
    lenCol m c = broadcastInDim S8x512x1 ![0, 1] bcast_S8x512_S8x512x1_0_1 (m ((c : Thread nD τ).loc main_arg2)) := by
  show (V m c main_v0 : S8x512x1.Idx → Elt F .f32) = _
  dsimp only [Gen.V, Gen.hostOps0]
  after_results

/-- L'(b, n, 0) = L(b, n). -/
theorem lenCol_apply (c : Dev nD) (b : Fin 8) (n : Fin 512) :
    lenCol m c (ix3 b n (0 : Fin 1)) = m ((c : Thread nD τ).loc main_arg2) (ix2 b n) := by
  rw [lenCol_eq]
  exact broadcastInDim_apply _ bcast_S8x512_S8x512x1_0_1 _ _ (ix2 b n) (fun a => match a with
    | ⟨0, _⟩ => by show b.val = if (8 : Nat) = 1 then 0 else b.val; rw [if_neg (by decide)]
    | ⟨1, _⟩ => by show n.val = if (512 : Nat) = 1 then 0 else n.val; rw [if_neg (by decide)])

end Cert.KernelIdeal.Pool

end
-- ==== Proof.PoolAcc.lean ====
/-
  The running block is a partial sum of the contraction.

  Within batch entry b the four grid steps k = 0, 1, 2, 3 add the products of token tiles 0 … k, so after step k the
  running block holds, at (n, h), the sum of the first 1024·(k + 1) terms M(b, n, s) · D(b, s, h): zero plus the
  first tile's sum at k = 0, the previous block plus this tile's sum afterwards.  At k = 3 the output block receives
  the whole contraction divided by L(b, n).
-/
import proofs.«155703_j84473416778474_1_alg».proof.Proof.Gen.KernelIdeal.Frame
import proofs.«155703_j84473416778474_1_alg».proof.Proof.PoolSpec
import proofs.«155703_j84473416778474_1_alg».proof.Proof.PoolPieces
import proofs.«155703_j84473416778474_1_alg».proof.Proof.PoolPayload
import proofs.«155703_j84473416778474_1_alg».proof.Proof.PoolBlocks

noncomputable section

namespace Cert.KernelIdeal.Pool

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ)

/-- The running block after the body at position k. -/
abbrev accAfter (c : Dev nD) (k : ℕ) (hk : k < cfg0.N) : Vec Ideal S512x1024 .f32 := (outsAt0 m c k hk).2

/-- The output block's staging contents after the body at position k. -/
abbrev outAfter (c : Dev nD) (k : ℕ) (hk : k < cfg0.N) : Vec Ideal S1x512x1024 .f32 := (outsAt0 m c k hk).1

/-- The sum of products over the tile of point t is stretch t % 4 of the contraction of batch entry b = t / 4. -/
theorem tile_sum (c : Dev nD) (t : Fin cfg0.N) (b : Fin 8) (hb : b.val = t.val / 4) (n : Fin 512) (h : Fin 1024) :
    ∑ r : Fin 1024, mapTile m c t (ix3 (0 : Fin 1) n r) * docTile m c t (ix3 (0 : Fin 1) r h)
      = ∑ r : Fin 1024, Cert.Pool.term (mapArr m c) (docArr m c) b n h (1024 * (t.val % 4) + r.val) := by
  refine Finset.sum_congr rfl fun r _ => ?_
  have hs : 1024 * (t.val % 4) + r.val < 4096 := by
    have := r.isLt; have := Nat.mod_lt t.val (by decide : 0 < 4); omega
  rw [Cert.Pool.term_of_lt _ _ _ _ _ _ hs, mapTile_apply m c t b hb n r hs, docTile_apply m c t b hb r h hs]

/-- One update of a block that holds the first 1024·k terms, k = t % 4, leaves the first 1024·(k + 1). -/
theorem update_partial (c : Dev nD) (t : Fin cfg0.N) (b : Fin 8) (hb : b.val = t.val / 4) (n : Fin 512) (h : Fin 1024)
    (a : Vec Ideal S512x1024 .f32)
    (ha : a (ix2 n h) = Cert.Pool.partialSum (mapArr m c) (docArr m c) b n h (t.val % 4)) :
    k0_pay2 (mapTile m c t) (docTile m c t) a (ix2 n h)
      = Cert.Pool.partialSum (mapArr m c) (docArr m c) b n h (t.val % 4 + 1) := by
  refine (update_apply (mapTile m c t) (docTile m c t) a n h).trans ?_
  rw [ha, tile_sum m c t b hb n h, Cert.Pool.partialSum_succ]

/-- At the first tile of a batch entry the running block ends at the first 1024 terms. -/
theorem acc_first (c : Dev nD) (t : Fin cfg0.N) (h0 : t.val % 4 = 0) (b : Fin 8) (hb : b.val = t.val / 4)
    (n : Fin 512) (h : Fin 1024) :
    accAfter m c t.val t.isLt (ix2 n h) = Cert.Pool.partialSum (mapArr m c) (docArr m c) b n h (t.val % 4 + 1) := by
  have h1 : ¬t.val % 4 = 3 := by omega
  show (outsAt0 m c t.val t.isLt).2 (ix2 n h) = _
  rw [outsAt0_A m c t h0 h1]
  dsimp only
  refine (congrFun (scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 n h)).trans ?_
  refine update_partial m c t b hb n h (k0_pay1 (F := Ideal)) ?_
  rw [zero_apply, h0, Cert.Pool.partialSum_zero]

/-- At a later tile the running block gains the tile's stretch over what the step before left. -/
theorem acc_later (c : Dev nD) (t : Fin cfg0.N) (h0 : ¬t.val % 4 = 0) (b : Fin 8) (hb : b.val = t.val / 4)
    (n : Fin 512) (h : Fin 1024)
    (ih : accAfter m c (t.val - 1) (Nat.lt_of_le_of_lt (Nat.sub_le _ _) t.isLt) (ix2 n h)
      = Cert.Pool.partialSum (mapArr m c) (docArr m c) b n h (t.val % 4)) :
    accAfter m c t.val t.isLt (ix2 n h) = Cert.Pool.partialSum (mapArr m c) (docArr m c) b n h (t.val % 4 + 1) := by
  show (outsAt0 m c t.val t.isLt).2 (ix2 n h) = _
  by_cases h1 : t.val % 4 = 3
  · rw [outsAt0_C m c t h0 h1]
    dsimp only
    refine (congrFun (scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 n h)).trans ?_
    exact update_partial m c t b hb n h _ ih
  · rw [outsAt0_B m c t h0 h1]
    dsimp only
    refine (congrFun (scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 n h)).trans ?_
    exact update_partial m c t b hb n h _ ih

/-- After the body at position k the running block holds the first 1024·(k % 4 + 1) terms of batch entry k / 4. -/
theorem acc_eq (c : Dev nD) (k : ℕ) : ∀ (hk : k < cfg0.N) (b : Fin 8) (hb : b.val = k / 4) (n : Fin 512) (h : Fin 1024),
    accAfter m c k hk (ix2 n h) = Cert.Pool.partialSum (mapArr m c) (docArr m c) b n h (k % 4 + 1) := by
  induction k using Nat.strong_induction_on with
  | _ k ih =>
    intro hk b hb n h
    by_cases h0 : k % 4 = 0
    · exact acc_first m c ⟨k, hk⟩ h0 b hb n h
    · refine acc_later m c ⟨k, hk⟩ h0 b hb n h ?_
      have e := ih (k - 1) (by omega) (Nat.lt_of_le_of_lt (Nat.sub_le _ _) hk) b (by omega) n h
      rw [show (k - 1) % 4 + 1 = k % 4 from by omega] at e
      exact e

/-- At the last tile of batch entry b the output block holds, at (0, n, h), the whole contraction over L(b, n). -/
theorem out_last (c : Dev nD) (t : Fin cfg0.N) (h1 : t.val % 4 = 3) (b : Fin 8) (hb : b.val = t.val / 4)
    (n : Fin 512) (h : Fin 1024) :
    outAfter m c t.val t.isLt (ix3 (0 : Fin 1) n h)
      = Cert.Pool.pooled (mapArr m c) (docArr m c) (m ((c : Thread nD τ).loc main_arg2)) (ix3 b n h) := by
  have h0 : ¬t.val % 4 = 0 := by omega
  show (outsAt0 m c t.val t.isLt).1 (ix3 (0 : Fin 1) n h) = _
  rw [outsAt0_C m c t h0 h1]
  dsimp only
  refine (congrFun (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix3 (0 : Fin 1) n h)).trans ?_
  refine (quotient_apply (lenTile m c t) _ n h).trans ?_
  have ih := acc_eq m c (t.val - 1) (Nat.lt_of_le_of_lt (Nat.sub_le _ _) t.isLt) b (by omega) n h
  rw [show (t.val - 1) % 4 + 1 = t.val % 4 from by omega] at ih
  rw [update_partial m c t b hb n h _ ih, h1, Cert.Pool.partialSum_four, lenTile_apply m c t b hb n, lenCol_apply,
    Cert.Pool.pooled_apply]

end Cert.KernelIdeal.Pool

end
-- ==== Proof.PoolFinal.lean ====
/-
  The output array after the call is the pooled array.

  The output block of batch entry b is written back once, after the entry's last token tile (grid point 4·b + 3), and
  what is written there is the pooled values O(b, ·, ·).  The eight written blocks are the eight batch entries, so they
  cover the [8, 512, 1024] array, which therefore ends holding the pooled array of the arguments.
-/
import proofs.«155703_j84473416778474_1_alg».proof.Proof.Gen.KernelIdeal.Value
import proofs.«155703_j84473416778474_1_alg».proof.Proof.PoolAcc

noncomputable section

namespace Cert.KernelIdeal.Pool

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The pooled array of the arrays as the call finds them. -/
abbrev result (c : Dev nD) : Buf (Elt Ideal) ((c : Thread nD τ).loc main_v1) :=
  Cert.Pool.pooled (mapArr m c) (docArr m c) (m ((c : Thread nD τ).loc main_arg2))

/-- The call finds the mapping weights and the token states as launched. -/
theorem result_eq (c : Dev nD) :
    result m c = Cert.Pool.pooled (m ((c : Thread nD τ).loc main_arg1)) (m ((c : Thread nD τ).loc main_arg0))
      (m ((c : Thread nD τ).loc main_arg2)) := by
  show Cert.Pool.pooled (V m c main_arg1) (V m c main_arg0) _ = _
  rw [V_main_arg1, V_main_arg0]

/-- What a write-back writes: after the last tile of batch entry t / 4, that entry's block of the pooled array. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have hb : t.val / 4 < 8 := by have := point_lt t; omega
  rw [Cert.KernelIdeal.Value.flushed3]
  show (outAfter m c t.val t.isLt : S1x512x1024.Idx → EReal)
    = fun y : S1x512x1024.Idx => result m c (((cfg0.win 3).blk t).view.emb y)
  funext y
  obtain ⟨u, n, h, rfl⟩ : ∃ (u : Fin 1) (n : Fin 512) (h : Fin 1024), y = ix3 u n h := ⟨y 0, y 1, y 2, eq_ix3 y⟩
  obtain rfl : u = 0 := Subsingleton.elim _ _
  rw [out_last m c t h1 ⟨t.val / 4, hb⟩ rfl n h]
  show Cert.Pool.pooled _ _ _ _ = Cert.Pool.pooled _ _ _ _
  obtain ⟨-, -, -, -, -, -, -, -, -, e0, e1, e2⟩ := block_index t
  refine congrArg _ (funext fun a => Fin.ext ?_)
  match a with
  | ⟨0, _⟩ => show t.val / 4 = win0_3.index t (0 : Fin 3) * 1 + 1 * 0; omega
  | ⟨1, _⟩ => show n.val = win0_3.index t (1 : Fin 3) * 512 + 1 * n.val; omega
  | ⟨2, _⟩ => show h.val = win0_3.index t (2 : Fin 3) * 1024 + 1 * h.val; omega

/-- An index of the output array is in point t's block iff each coordinate is in the block's range on its axis. -/
theorem mem_block (t : Fin cfg0.N) (i : S8x512x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v1).slice (win0_3.rect t)).set ↔ _
  rw [View.set_slice_whole, Rect.mem_set_unit]
  exact Iff.rfl

/-- Entry (b, n, h) lies in the block written back after the last tile of batch entry b. -/
theorem covered (i : S8x512x1024.Idx) :
    ∃ t : Fin cfg0.N, (cfg0.win 3).flush t = true ∧ i ∈ ((cfg0.win 3).blk t).view.set := by
  have hi0 : (i 0).val < 8 := (i 0).isLt
  have hi1 : (i 1).val < 512 := (i 1).isLt
  have hi2 : (i 2).val < 1024 := (i 2).isLt
  have hlt : 4 * (i 0).val + 3 < cfg0.N := by rw [show cfg0.N = 32 from N_0]; omega
  refine ⟨⟨4 * (i 0).val + 3, hlt⟩, (flush0_3 _).mpr (by show (4 * (i 0).val + 3) % 4 = 3; omega), ?_⟩
  rw [mem_block]
  obtain ⟨-, -, -, -, -, -, -, -, -, e0, e1, e2⟩ := block_index ⟨4 * (i 0).val + 3, hlt⟩
  dsimp only at e0
  intro a
  match a with
  | ⟨0, _⟩ =>
    show win0_3.index ⟨4 * (i 0).val + 3, hlt⟩ (0 : Fin 3) * 1 ≤ (i 0).val
      ∧ (i 0).val < win0_3.index ⟨4 * (i 0).val + 3, hlt⟩ (0 : Fin 3) * 1 + 1
    omega
  | ⟨1, _⟩ =>
    show win0_3.index ⟨4 * (i 0).val + 3, hlt⟩ (1 : Fin 3) * 512 ≤ (i 1).val
      ∧ (i 1).val < win0_3.index ⟨4 * (i 0).val + 3, hlt⟩ (1 : Fin 3) * 512 + 512
    omega
  | ⟨2, _⟩ =>
    show win0_3.index ⟨4 * (i 0).val + 3, hlt⟩ (2 : Fin 3) * 1024 ≤ (i 2).val
      ∧ (i 2).val < win0_3.index ⟨4 * (i 0).val + 3, hlt⟩ (2 : Fin 3) * 1024 + 1024
    omega

/-- The output array ends holding the pooled array. -/
theorem final (c : Dev nD) : (dats m 0 c).arrAt 3 cfg0.N = result m c :=
  (dats m 0 c).arrAt_eq_of_cover 3 (result m c) (flushed_eq m c) covered

/-- Every weakly fair execution of the kernel program terminates with the output array at the pooled array of the
    arguments, and the arguments unchanged. -/
theorem run : θ_run defs (onTc (τ := τ) (main (F := Ideal))) ⟨m, fun _ => 0, ρ⟩ fun r => ∀ c : Dev nD,
      r.2.mem ((c : Thread nD τ).loc main_v1)
        = Cert.Pool.pooled (m ((c : Thread nD τ).loc main_arg1)) (m ((c : Thread nD τ).loc main_arg0))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (result_eq m c)), (h c).2⟩)
    (Cert.KernelIdeal.Value.run_blocks m ρ)

end Cert.KernelIdeal.Pool

end
-- ==== Proof.lean ====
/-
  Mean pooling as a batched product: the kernel against its reference, over the extended reals.

  Both programs compute  O(b, n, h) = (∑ₛ M(b, n, s) · D(b, s, h)) / L(b, n)  from the mapping weights M, the token
  states D and the node lengths L.  The reference takes the whole contraction over the 4096 tokens in one batched
  product and divides.  The kernel walks a grid of 8 batch entries by 4 token tiles: for each batch entry it resets a
  running block to zero, adds to it the product of each tile of 1024 tokens in turn (the operands narrowed to a
  shorter float format first, which over the extended reals changes nothing), and after the fourth tile divides the
  block row by row by the node lengths and writes it out.  The two agree because addition of extended reals is
  associative with zero as its unit, so that four stretches of 1024 terms added in order to zero are the sum of all
  4096 terms; the quotient is the same operation on both sides, whatever the divisor.  No entry needs to be finite.

  The three programs run to the end with their arguments unchanged: for the two kernel programs that is the generated
  frame, for the reference its generated run.  The idealization rewrote no operation.
-/
import proofs.«155703_j84473416778474_1_alg».proof.Defs
import proofs.«155703_j84473416778474_1_alg».proof.Proof.Gen.Kernel
import proofs.«155703_j84473416778474_1_alg».proof.Proof.Gen.Kernel.Skeleton
import proofs.«155703_j84473416778474_1_alg».proof.Proof.Gen.Kernel.Launch
import proofs.«155703_j84473416778474_1_alg».proof.Proof.Gen.Kernel.Points
import proofs.«155703_j84473416778474_1_alg».proof.Proof.Gen.Kernel.Frame
import proofs.«155703_j84473416778474_1_alg».proof.Proof.Gen.KernelIdeal
import proofs.«155703_j84473416778474_1_alg».proof.Proof.Gen.KernelIdeal.Skeleton
import proofs.«155703_j84473416778474_1_alg».proof.Proof.Gen.KernelIdeal.Launch
import proofs.«155703_j84473416778474_1_alg».proof.Proof.Gen.KernelIdeal.Points
import proofs.«155703_j84473416778474_1_alg».proof.Proof.Gen.KernelIdeal.Frame
import proofs.«155703_j84473416778474_1_alg».proof.Proof.Gen.KernelIdeal.Value
import proofs.«155703_j84473416778474_1_alg».proof.Proof.Gen.ReferenceIdeal
import proofs.«155703_j84473416778474_1_alg».proof.Proof.Gen.ReferenceIdeal.Run
import proofs.«155703_j84473416778474_1_alg».proof.Proof.Gen.ReferenceIdeal.Read
import proofs.«155703_j84473416778474_1_alg».proof.Proof.Gen.Pre_finite_inputs
import proofs.«155703_j84473416778474_1_alg».proof.Proof.PoolRef
import proofs.«155703_j84473416778474_1_alg».proof.Proof.PoolFinal
import Idealize.ShloMosaic.Adequacy
import Idealize.ShloMosaic.Init

noncomputable section

namespace Cert.Proof

open Idealize.ShloMosaic Idealize.SL.Sem

/-- The word-level kernel program runs to the end and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with the pooled array of those arguments. -/
theorem algebraic : Cert.algebraic_KernelIdeal_ReferenceIdeal := by
  intro m ρ m' ρ' _ hagree
  refine ⟨fun c => Cert.Pool.pooled (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.Pool.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Pool.result_eq_pooled,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
